-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : FVec F S128x128 .f32) (main_arg2 : FVec F S128 .f32) (main_arg3 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S2000x128 : Shape := ⟨2, ![2000, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S2000x1 : Shape := ⟨2, ![2000, 1]⟩
abbrev S1x128 : Shape := ⟨2, ![1, 128]⟩

abbrev nBuf : Space → Nat
  | .hbm => 70
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S2x1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000x128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S1x128, .f32⟩
  | .hbm, ⟨69, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x1, .f32⟩
  | .local _ .vmem, ⟨8, _⟩ => ⟨S2000x1, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v22 : Ref sig .tc := ⟨.hbm, 39, rfl⟩
abbrev main_v23 : Ref sig .tc := ⟨.hbm, 40, rfl⟩
abbrev main_c : Ref sig .tc := ⟨.hbm, 41, rfl⟩
abbrev main_v24 : Ref sig .tc := ⟨.hbm, 42, rfl⟩
abbrev main_v25 : Ref sig .tc := ⟨.hbm, 43, rfl⟩
abbrev main_c_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_c_11 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_12 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  shapeCasts_S2000x128_S2000x128 : S2000x128.ShapeCasts S2000x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S2000x128_S128x128_S2000x128_1_0_0_1_n_n_wf : DotDims.WF S2000x128 S128x128 S2000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S2x1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000x128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_c_11 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_12 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.HostStages.lean ====
/-
  The host stretches of the idealized kernel's @main, read as functions of whatever contents they start from, against
  the reference's stages. The kernel's program and the reference apply the SAME host operations around the three
  regions — the two index rows sliced out of the incidence array, the two degree counts by scatter-add of ones and
  their guarded reciprocals, the gather of rows at the (wrapped) indices and the scatter-add of the gathered rows —,
  so each buffer a later region reads holds the reference's stage of the same name's value as soon as the buffers the
  stretch reads hold theirs. The two column operands are RESHAPES of the reciprocal-degree vectors (the reference
  broadcasts instead: that difference is met where the regions' functions are compared), and the bias row a reshape
  of the bias.
-/
import proofs.«179966_j39307540693803_1_alg».proof.Proof.Gen.KernelIdeal.Launch
import proofs.«179966_j39307540693803_1_alg».proof.Proof.RefRead
import Idealize.ShloMosaic.Lib.StableHlo.Run

noncomputable section

namespace Cert.KernelIdeal.HostStages

open Cert.KernelIdeal Cert.KernelIdeal.Gen Idealize.ShloMosaic Idealize.ShloMosaic.TcCoe Idealize.SL.Sem Idealize.ShloMosaic.StableHlo
open Cert.ReferenceIdeal.ReadP (val_main_v1 val_main_v3 val_main_v4 val_main_v16 val_main_v21 val_main_v31 val_main_v34 val_main_v44)

variable {F : FTy → Type} [FloatOps F]

/-! ## Before the first region: the two index rows -/

/-- The node indices: row 0 of the incidence array. -/
theorem first_nodes (Vin : Valuation τ sig (Elt F)) :
    after hostOps0 Vin (Proc.devRef .tc main_v1) = val_main_v1 (F := F) (Vin (Proc.devRef .tc main_arg3)) := by
  after_results
  rfl

/-- The hyperedge indices: row 1 of the incidence array. -/
theorem first_edges (Vin : Valuation τ sig (Elt F)) :
    after hostOps0 Vin (Proc.devRef .tc main_v3) = val_main_v3 (F := F) (Vin (Proc.devRef .tc main_arg3)) := by
  after_results
  rfl

/-- The stretch writes no argument array. -/
theorem first_arg0 (Vin : Valuation τ sig (Elt F)) :
    after hostOps0 Vin (Proc.devRef .tc main_arg0) = Vin (Proc.devRef .tc main_arg0) := by after_results
theorem first_arg1 (Vin : Valuation τ sig (Elt F)) :
    after hostOps0 Vin (Proc.devRef .tc main_arg1) = Vin (Proc.devRef .tc main_arg1) := by after_results
theorem first_arg2 (Vin : Valuation τ sig (Elt F)) :
    after hostOps0 Vin (Proc.devRef .tc main_arg2) = Vin (Proc.devRef .tc main_arg2) := by after_results

/-! ## Between the first and the middle region -/

/-- The contents after the five stretches between the first two regions, from contents `Vin`. -/
abbrev mid (Vin : Valuation τ sig (Elt F)) : Valuation τ sig (Elt F) :=
  after hostOps1_4 (after hostOps1_3 (after hostOps1_2 (after hostOps1_1 (after hostOps1 Vin))))

section Mid
variable (Vin : Valuation τ sig (Elt F))
  (x0 : (⟨Cert.ReferenceIdeal.S100000x128, .f32⟩ : BufTy).Contents (Elt F)) (x1 : (⟨Cert.ReferenceIdeal.S128x128, .f32⟩ : BufTy).Contents (Elt F))
  (x3 : (⟨Cert.ReferenceIdeal.S2x1600000, .i32⟩ : BufTy).Contents (Elt F))

set_option maxHeartbeats 4000000 in
/-- The rows of the projected features gathered at the node indices and scatter-added at the hyperedge indices. -/
theorem mid_edgeSums (h4 : Vin (Proc.devRef .tc main_v4) = val_main_v4 (F := F) x0 x1)
    (h1 : Vin (Proc.devRef .tc main_v1) = val_main_v1 (F := F) x3) (h3 : Vin (Proc.devRef .tc main_v3) = val_main_v3 (F := F) x3) :
    mid Vin (Proc.devRef .tc main_v33) = val_main_v31 (F := F) x0 x1 x3 := by
  after_results_simp
  rw [h4, h1, h3]
  rfl

set_option maxHeartbeats 4000000 in
/-- The reciprocal hyperedge degrees (zero where the degree is zero), reshaped to one column. -/
theorem mid_edgeInv (h3 : Vin (Proc.devRef .tc main_v3) = val_main_v3 (F := F) x3) :
    mid Vin (Proc.devRef .tc main_v23) = shapeCast S100000x1 (val_main_v21 (F := F) x3) shapeCasts_S100000_S100000x1 := by
  after_results_simp
  rw [h3]
  rfl

set_option maxHeartbeats 4000000 in
/-- The reciprocal node degrees (zero where the degree is zero), reshaped to one column. -/
theorem mid_nodeInv (h1 : Vin (Proc.devRef .tc main_v1) = val_main_v1 (F := F) x3) :
    mid Vin (Proc.devRef .tc main_v17) = shapeCast S100000x1 (val_main_v16 (F := F) x3) shapeCasts_S100000_S100000x1 := by
  after_results_simp
  rw [h1]
  rfl

set_option maxHeartbeats 4000000 in
/-- The stretches leave the index rows and the bias as they were. -/
theorem mid_nodes : mid Vin (Proc.devRef .tc main_v1) = Vin (Proc.devRef .tc main_v1) := by after_results_simp
set_option maxHeartbeats 4000000 in
theorem mid_edges : mid Vin (Proc.devRef .tc main_v3) = Vin (Proc.devRef .tc main_v3) := by after_results_simp
set_option maxHeartbeats 4000000 in
theorem mid_arg2 : mid Vin (Proc.devRef .tc main_arg2) = Vin (Proc.devRef .tc main_arg2) := by after_results_simp

end Mid

/-! ## Between the middle and the last region -/

section Last
variable (Vin : Valuation τ sig (Elt F))
  (x0 : (⟨Cert.ReferenceIdeal.S100000x128, .f32⟩ : BufTy).Contents (Elt F)) (x1 : (⟨Cert.ReferenceIdeal.S128x128, .f32⟩ : BufTy).Contents (Elt F))
  (x3 : (⟨Cert.ReferenceIdeal.S2x1600000, .i32⟩ : BufTy).Contents (Elt F))

set_option maxHeartbeats 4000000 in
/-- The rows of the hyperedge features gathered at the hyperedge indices and scatter-added at the node indices. -/
theorem last_nodeSums (h34 : Vin (Proc.devRef .tc main_v34) = val_main_v34 (F := F) x0 x1 x3)
    (h1 : Vin (Proc.devRef .tc main_v1) = val_main_v1 (F := F) x3) (h3 : Vin (Proc.devRef .tc main_v3) = val_main_v3 (F := F) x3) :
    after hostOps2 Vin (Proc.devRef .tc main_v44) = val_main_v44 (F := F) x0 x1 x3 := by
  after_results_simp
  rw [h34, h1, h3]
  rfl

/-- The bias reshaped to one row. -/
theorem last_bias :
    after hostOps2 Vin (Proc.devRef .tc main_v45) = shapeCast S1x128 (Vin (Proc.devRef .tc main_arg2)) shapeCasts_S128_S1x128 := by
  after_results_simp
  rfl

/-- The stretch leaves the node column as it was. -/
theorem last_nodeInv : after hostOps2 Vin (Proc.devRef .tc main_v17) = Vin (Proc.devRef .tc main_v17) := by after_results_simp

end Last

end Cert.KernelIdeal.HostStages

end
-- ==== Proof.MatmulRows.lean ====
/-
  The first region of the idealized kernel at the ideal instance: a [100000, 128] array times a [128, 128] matrix, 2000
  rows to a grid point. At the extended reals a change of float format is the identity and the unit's product into a
  zero accumulator is the plain sum, so what the region leaves in its result array, whatever the contents `V` it is
  entered from, is ONE function of its two operand arrays: entry (r, q) is `∑ k, X (r, k) · W (k, q)`. Point `t`
  loads rows `2000 t … 2000 t + 1999` of `X` and the whole of `W` (its block never moves) and writes their product
  back to the same rows of the result; the 50 points' row blocks tile the array.
-/
import proofs.«179966_j39307540693803_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.RowsTimes

open Cert.KernelIdeal Cert.KernelIdeal.Gen Idealize.ShloMosaic Idealize.ShloMosaic.TcCoe Idealize.SL.Sem
open Idealize.ShloMosaic.Pipeline (Dat)
open Idealize.ShloMosaic.ValueIdx

theorem hz : (![0, 0] : Fin 2 → Nat) = fun _ => 0 := funext fun a => by fin_cases a <;> rfl

/-- The rows of `X` times the matrix `W`: entry (r, q) sums `X (r, k) · W (k, q)` over the 128 values of `k`. -/
def rowsTimes (X : FVec Ideal S100000x128 .f32) (W : FVec Ideal S128x128 .f32) : FVec Ideal S100000x128 .f32 :=
  fun i => ∑ k : Fin 128, X (ix2 (i 0) k) * W (ix2 k (i 1))

/-! The product's operand indices at output index `i` and contraction index `q`, axis by axis: the left operand is
    read at (row of `i`, `q`), the right at (`q`, lane of `i`). -/

theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's stored value at row `p`, lane `q` of a block: the loaded row block times the loaded matrix, the two
    narrowings the identity at the extended reals and the zero accumulator adding nothing. -/
theorem pay_apply (x : Vec Ideal S2000x128 .f32) (w : Vec Ideal S128x128 .f32) (p : Fin 2000) (q : Fin 128) :
    k0_pay1 (F := Ideal) x w (ix2 p q) = ∑ k : Fin 128, (x : FVec Ideal S2000x128 .f32) (ix2 p k) * (w : FVec Ideal S128x128 .f32) (ix2 k q) := by
  unfold k0_pay1
  dsimp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  rw [el, er]
  rfl

/-- The three index maps, decided over the 50 points: block index (t, 0), but (0, 0) for the matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The two operand arrays as the region finds them, named at their literal types. -/
abbrev arrX (c : Dev nD) : FVec Ideal S100000x128 .f32 := V c main_arg0
abbrev arrW (c : Dev nD) : FVec Ideal S128x128 .f32 := V c main_arg1

/-- The row block of `X` at point `t` is rows `2000 t …` of the array. -/
theorem xblk_apply (c : Dev nD) (t : Fin cfg0.N) (p : Fin 2000) (k : Fin 128) (r : Fin 100000) (hr : r.val = t.val * 2000 + p.val) :
    (iblk0 V c 0 t : Vec Ideal S2000x128 .f32) (ix2 p k) = arrX V c (ix2 r k) := by
  obtain ⟨e0, e1, -, -, -, -⟩ := idx_facts t
  show V c main_arg0 (((cfg0.win 0).blk t).view.emb (ix2 p k)) = V c main_arg0 (ix2 r k)
  refine congrArg (V c main_arg0) ?_
  funext a; apply Fin.ext
  match a with
  | ⟨0, _⟩ => show win0_0.index t (0 : Fin 2) * 2000 + 1 * p.val = r.val; omega
  | ⟨1, _⟩ => show win0_0.index t (1 : Fin 2) * 128 + 1 * k.val = k.val; omega

/-- The matrix's block at every point is the whole matrix. -/
theorem wblk_apply (c : Dev nD) (t : Fin cfg0.N) (k q : Fin 128) :
    (iblk0 V c 1 t : Vec Ideal S128x128 .f32) (ix2 k q) = arrW V c (ix2 k q) := by
  obtain ⟨-, -, e2, e3, -, -⟩ := idx_facts t
  show V c main_arg1 (((cfg0.win 1).blk t).view.emb (ix2 k q)) = V c main_arg1 (ix2 k q)
  refine congrArg (V c main_arg1) ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- What point `t` writes back is block `t` of `rowsTimes` of the two operand arrays as the region finds them. -/
theorem flushed_eq (c : Dev nD) (t : Fin cfg0.N) :
    (dat0 V c).flushed 2 t = ((cfg0.win 2).blk t).view.read (Elt Ideal) (rowsTimes (arrX V c) (arrW V c)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨-, -, -, -, e4, e5⟩ := idx_facts t
  funext j
  obtain ⟨p, q, rfl⟩ : ∃ (p : Fin 2000) (q : Fin 128), j = ix2 p q := ⟨j 0, j 1, eq_ix2 j⟩
  refine (pay_apply (iblk0 V c 0 t) (iblk0 V c 1 t) p q).trans ?_
  have hp : p.val < 2000 := p.isLt
  have ht : t.val < 50 := lt_of_lt_of_eq t.isLt N_0
  show _ = rowsTimes (arrX V c) (arrW V c) (((cfg0.win 2).blk t).view.emb (ix2 p q))
  have hemb : ((cfg0.win 2).blk t).view.emb (ix2 p q) = ix2 (⟨t.val * 2000 + p.val, by omega⟩ : Fin 100000) q := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  rw [hemb]
  show _ = ∑ k : Fin 128, arrX V c (ix2 (⟨t.val * 2000 + p.val, by omega⟩ : Fin 100000) k) * arrW V c (ix2 k q)
  refine Finset.sum_congr rfl fun k _ => ?_
  rw [xblk_apply V c t p k ⟨t.val * 2000 + p.val, by omega⟩ rfl, wblk_apply V c t k q]

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v4).slice (win0_2.rect t)).set ↔ _
  rw [View.set_slice_whole, Rect.mem_set_unit]
  exact Iff.rfl

/-- Row `r` lies in the block of point `r / 2000`: the 50 row blocks tile the array. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 2000, by rw [show cfg0.N = 50 from N_0]; omega⟩, flush0_2 _, ?_⟩
  rw [mem_blk]
  obtain ⟨-, -, -, -, e4, e5⟩ := idx_facts ⟨(i 0).val / 2000, by rw [show cfg0.N = 50 from N_0]; omega⟩
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ (i 0).val ∧ (i 0).val < (i 0).val / 2000 * 2000 + 2000; omega
  | ⟨1, _⟩ => show win0_2.index _ (1 : Fin 2) * 128 ≤ (i 1).val ∧ (i 1).val < win0_2.index _ (1 : Fin 2) * 128 + 128; rw [e5]; omega

/-- The region's result array after its 50 points: the rows of its first operand times its second, as entered. -/
theorem final (c : Dev nD) : (dat0 V c).arrAt 2 cfg0.N = rowsTimes (arrX V c) (arrW V c) :=
  (dat0 V c).arrAt_eq_of_cover 2 (rowsTimes (arrX V c) (arrW V c)) (fun t _ => flushed_eq V c t) cover

end Cert.KernelIdeal.RowsTimes

end
-- ==== Proof.ScaleRows.lean ====
/-
  The middle region of the idealized kernel: every row of a [100000, 128] array multiplied by that row's entry of a
  [100000, 1] column, 2000 rows to a grid point. What the region leaves in its result array, whatever the contents
  `V` it is entered from, is ONE function of its two operand arrays: entry (r, q) is `A (r, q) · v (r, 0)`.
  Point `t` loads rows `2000 t … 2000 t + 1999` of both operands, broadcasts the column block along the 128 lanes,
  multiplies, and writes the product back to the same rows; the 50 points' row blocks tile the array.
-/
import proofs.«179966_j39307540693803_1_alg».proof.Proof.Gen.KernelIdeal.Frame
import Idealize.ShloMosaic.Lib.Pipeline.Value
import Idealize.ShloMosaic.Lib.ValueIdx

noncomputable section

namespace Cert.KernelIdeal.RowScale

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

theorem hz : (![0, 0] : Fin 2 → Nat) = fun _ => 0 := funext fun a => by fin_cases a <;> rfl

/-- Each row of `A` scaled by that row's entry of the one-column array `v`. -/
def rowScale (A : S100000x128.Idx → Elt F .f32) (v : S100000x1.Idx → Elt F .f32) : S100000x128.Idx → Elt F .f32 :=
  fun i => FloatOps.mulf (A i) (v (ix2 (i 0) (0 : Fin 1)))

/-- The body's stored value at row `p`, lane `q` of a block: the loaded row block's entry times the loaded column
    block's entry of the same row (the two same-shape casts are the identity, the broadcast repeats the column). -/
theorem pay_apply (inv : Vec F S2000x1 .f32) (feat : Vec F S2000x128 .f32) (p : Fin 2000) (q : Fin 128) :
    k1_pay1 inv feat (ix2 p q) = FloatOps.mulf (feat (ix2 p q)) (inv (ix2 p (0 : Fin 1))) := by
  unfold k1_pay1
  simp only [shapeCast_self]
  show FloatOps.mulf (feat (ix2 p q)) (broadcastTo S2000x128 inv broadcasts_S2000x1_S2000x128 (ix2 p q)) = _
  rw [broadcastTo_apply inv broadcasts_S2000x1_S2000x128 (ix2 p q) (ix2 p (0 : Fin 1)) (fun a => match a with
    | ⟨0, _⟩ => by show p.val = if (2000 : Nat) = 1 then 0 else p.val; rw [if_neg (by decide)]
    | ⟨1, _⟩ => by show (0 : Nat) = if (1 : Nat) = 1 then 0 else q.val; rw [if_pos rfl])]

/-- The three index maps, decided over the 50 points: each window's block index is (t, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt F) ((c : Thread nD τ).loc b))

/-- What point `t` writes back is block `t` of `rowScale` of the two operand arrays as the region finds them. -/
theorem flushed_eq (c : Dev nD) (t : Fin cfg1.N) :
    (dat1 V c).flushed 2 t = ((cfg1.win 2).blk t).view.read (Elt F) (rowScale (V c main_v33) (V c main_v23)) := by
  show (cfg1.win 2).cut (grid1.coords t) ((dat1 V c).after 2 t) = _
  rw [after1_2]
  unfold out1_2
  rw [View.canon_unit_zero hz]
  simp only [View.ld_unit_zero (S := S2000x128) hz, View.ld_unit_zero (S := S2000x1) hz]
  obtain ⟨e0, e1, e2, e3, e4, e5⟩ := idx_facts t
  funext j
  obtain ⟨p, q, rfl⟩ : ∃ (p : Fin 2000) (q : Fin 128), j = ix2 p q := ⟨j 0, j 1, eq_ix2 j⟩
  refine (pay_apply (iblk1 V c 1 t) (iblk1 V c 0 t) p q).trans ?_
  show FloatOps.mulf (V c main_v33 (((cfg1.win 0).blk t).view.emb (ix2 p q))) (V c main_v23 (((cfg1.win 1).blk t).view.emb (ix2 p (0 : Fin 1))))
    = FloatOps.mulf (V c main_v33 (((cfg1.win 2).blk t).view.emb (ix2 p q))) (V c main_v23 (ix2 ((((cfg1.win 2).blk t).view.emb (ix2 p q)) 0) (0 : Fin 1)))
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have h1 : ((cfg1.win 1).blk t).view.emb (ix2 p (0 : Fin 1)) = ix2 ((((cfg1.win 2).blk t).view.emb (ix2 p q)) 0) (0 : Fin 1) := by
    funext a; apply Fin.ext
    match a with
    | ⟨0, _⟩ => show win1_1.index t (0 : Fin 2) * 2000 + 1 * p.val = win1_2.index t (0 : Fin 2) * 2000 + 1 * p.val; omega
    | ⟨1, _⟩ => show win1_1.index t (1 : Fin 2) * 1 + 1 * 0 = 0; omega
  rw [h0, h1]
  rfl

/-- An index of the result array is in point `t`'s block iff each coordinate is in the block's range on its axis. -/
theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v34).slice (win1_2.rect t)).set ↔ _
  rw [View.set_slice_whole, Rect.mem_set_unit]
  exact Iff.rfl

/-- Row `r` lies in the block of point `r / 2000`: the 50 row blocks tile the array. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  refine ⟨⟨(i 0).val / 2000, by rw [show cfg1.N = 50 from N_1]; omega⟩, flush1_2 _, ?_⟩
  rw [mem_blk]
  obtain ⟨-, -, -, -, e4, e5⟩ := idx_facts ⟨(i 0).val / 2000, by rw [show cfg1.N = 50 from N_1]; omega⟩
  intro a
  match a with
  | ⟨0, _⟩ => show win1_2.index _ (0 : Fin 2) * 2000 ≤ (i 0).val ∧ (i 0).val < win1_2.index _ (0 : Fin 2) * 2000 + 2000; rw [e4]; show (i 0).val / 2000 * 2000 ≤ (i 0).val ∧ (i 0).val < (i 0).val / 2000 * 2000 + 2000; omega
  | ⟨1, _⟩ => show win1_2.index _ (1 : Fin 2) * 128 ≤ (i 1).val ∧ (i 1).val < win1_2.index _ (1 : Fin 2) * 128 + 128; rw [e5]; omega

/-- The region's result array after its 50 points: `rowScale` of its operand arrays at entry. -/
theorem final (c : Dev nD) : (dat1 V c).arrAt 2 cfg1.N = rowScale (V c main_v33) (V c main_v23) :=
  (dat1 V c).arrAt_eq_of_cover 2 (rowScale (V c main_v33) (V c main_v23)) (fun t _ => flushed_eq V c t) cover

end Cert.KernelIdeal.RowScale

end
-- ==== Proof.ScaleBiasRows.lean ====
/-
  The last region of the idealized kernel: every row of a [100000, 128] array multiplied by that row's entry of a
  [100000, 1] column, then a [1, 128] row added to every row, 2000 rows to a grid point. What the region leaves in its
  result array, whatever the contents `V` it is entered from, is ONE function of its three operand arrays: entry
  (r, q) is `A (r, q) · v (r, 0) + b (0, q)`. Point `t` loads rows `2000 t … 2000 t + 1999` of the first two operands
  and the whole one-row third operand (its block never moves), broadcasts the column along the lanes and the row along
  the rows, and writes product plus row back to the same rows; the 50 points' row blocks tile the array.
-/
import proofs.«179966_j39307540693803_1_alg».proof.Proof.Gen.KernelIdeal.Frame
import Idealize.ShloMosaic.Lib.Pipeline.Value
import Idealize.ShloMosaic.Lib.ValueIdx

noncomputable section

namespace Cert.KernelIdeal.RowScaleBias

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

theorem hz : (![0, 0] : Fin 2 → Nat) = fun _ => 0 := funext fun a => by fin_cases a <;> rfl

/-- Each row of `A` scaled by that row's entry of the one-column array `v`, then the one-row array `b` added. -/
def rowScaleBias (A : S100000x128.Idx → Elt F .f32) (v : S100000x1.Idx → Elt F .f32) (b : S1x128.Idx → Elt F .f32) :
    S100000x128.Idx → Elt F .f32 :=
  fun i => FloatOps.addf (FloatOps.mulf (A i) (v (ix2 (i 0) (0 : Fin 1)))) (b (ix2 (0 : Fin 1) (i 1)))

/-- The body's stored value at row `p`, lane `q` of a block: the loaded row block's entry times the loaded column
    block's entry of the same row, plus the loaded row's entry of the same lane (the same-shape casts are the
    identity; one broadcast repeats the column along the lanes, the other the row along the rows). -/
theorem pay_apply (inv : Vec F S2000x1 .f32) (bias : Vec F S1x128 .f32) (feat : Vec F S2000x128 .f32) (p : Fin 2000) (q : Fin 128) :
    k2_pay1 inv bias feat (ix2 p q)
      = FloatOps.addf (FloatOps.mulf (feat (ix2 p q)) (inv (ix2 p (0 : Fin 1)))) (bias (ix2 (0 : Fin 1) q)) := by
  unfold k2_pay1
  simp only [shapeCast_self]
  show FloatOps.addf (FloatOps.mulf (feat (ix2 p q)) (broadcastTo S2000x128 inv broadcasts_S2000x1_S2000x128 (ix2 p q)))
      (broadcastTo S2000x128 bias broadcasts_S1x128_S2000x128 (ix2 p q)) = _
  rw [broadcastTo_apply inv broadcasts_S2000x1_S2000x128 (ix2 p q) (ix2 p (0 : Fin 1)) (fun a => match a with
    | ⟨0, _⟩ => by show p.val = if (2000 : Nat) = 1 then 0 else p.val; rw [if_neg (by decide)]
    | ⟨1, _⟩ => by show (0 : Nat) = if (1 : Nat) = 1 then 0 else q.val; rw [if_pos rfl]),
    broadcastTo_apply bias broadcasts_S1x128_S2000x128 (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])]

/-- The four index maps, decided over the 50 points: block index (t, 0), but (0, 0) for the one-row operand. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt F) ((c : Thread nD τ).loc b))

/-- What point `t` writes back is block `t` of `rowScaleBias` of the three operand arrays as the region finds them. -/
theorem flushed_eq (c : Dev nD) (t : Fin cfg2.N) :
    (dat2 V c).flushed 3 t
      = ((cfg2.win 3).blk t).view.read (Elt F) (rowScaleBias (V c main_v44) (V c main_v17) (V c main_v45)) := by
  show (cfg2.win 3).cut (grid2.coords t) ((dat2 V c).after 3 t) = _
  rw [after2_3]
  unfold out2_3
  rw [View.canon_unit_zero hz]
  simp only [View.ld_unit_zero (S := S2000x128) hz, View.ld_unit_zero (S := S2000x1) hz, View.ld_unit_zero (S := S1x128) hz]
  obtain ⟨e0, e1, e2, e3, e4, e5, e6, e7⟩ := idx_facts t
  funext j
  obtain ⟨p, q, rfl⟩ : ∃ (p : Fin 2000) (q : Fin 128), j = ix2 p q := ⟨j 0, j 1, eq_ix2 j⟩
  refine (pay_apply (iblk2 V c 1 t) (iblk2 V c 2 t) (iblk2 V c 0 t) p q).trans ?_
  show FloatOps.addf (FloatOps.mulf (V c main_v44 (((cfg2.win 0).blk t).view.emb (ix2 p q))) (V c main_v17 (((cfg2.win 1).blk t).view.emb (ix2 p (0 : Fin 1)))))
      (V c main_v45 (((cfg2.win 2).blk t).view.emb (ix2 (0 : Fin 1) q)))
    = FloatOps.addf (FloatOps.mulf (V c main_v44 (((cfg2.win 3).blk t).view.emb (ix2 p q))) (V c main_v17 (ix2 ((((cfg2.win 3).blk t).view.emb (ix2 p q)) 0) (0 : Fin 1))))
      (V c main_v45 (ix2 (0 : Fin 1) ((((cfg2.win 3).blk t).view.emb (ix2 p q)) 1)))
  have h0 : ((cfg2.win 0).blk t).view.emb (ix2 p q) = ((cfg2.win 3).blk t).view.emb (ix2 p q) := by
    funext a; apply Fin.ext
    match a with
    | ⟨0, _⟩ => show win2_0.index t (0 : Fin 2) * 2000 + 1 * p.val = win2_3.index t (0 : Fin 2) * 2000 + 1 * p.val; omega
    | ⟨1, _⟩ => show win2_0.index t (1 : Fin 2) * 128 + 1 * q.val = win2_3.index t (1 : Fin 2) * 128 + 1 * q.val; omega
  have h1 : ((cfg2.win 1).blk t).view.emb (ix2 p (0 : Fin 1)) = ix2 ((((cfg2.win 3).blk t).view.emb (ix2 p q)) 0) (0 : Fin 1) := by
    funext a; apply Fin.ext
    match a with
    | ⟨0, _⟩ => show win2_1.index t (0 : Fin 2) * 2000 + 1 * p.val = win2_3.index t (0 : Fin 2) * 2000 + 1 * p.val; omega
    | ⟨1, _⟩ => show win2_1.index t (1 : Fin 2) * 1 + 1 * 0 = 0; omega
  have h2 : ((cfg2.win 2).blk t).view.emb (ix2 (0 : Fin 1) q) = ix2 (0 : Fin 1) ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  rw [h0, h1, h2]
  rfl

/-- An index of the result array is in point `t`'s block iff each coordinate is in the block's range on its axis. -/
theorem mem_blk (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v46).slice (win2_3.rect t)).set ↔ _
  rw [View.set_slice_whole, Rect.mem_set_unit]
  exact Iff.rfl

/-- Row `r` lies in the block of point `r / 2000`: the 50 row blocks tile the array. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  refine ⟨⟨(i 0).val / 2000, by rw [show cfg2.N = 50 from N_2]; omega⟩, flush2_3 _, ?_⟩
  rw [mem_blk]
  obtain ⟨-, -, -, -, -, -, e6, e7⟩ := idx_facts ⟨(i 0).val / 2000, by rw [show cfg2.N = 50 from N_2]; omega⟩
  intro a
  match a with
  | ⟨0, _⟩ => show win2_3.index _ (0 : Fin 2) * 2000 ≤ (i 0).val ∧ (i 0).val < win2_3.index _ (0 : Fin 2) * 2000 + 2000; rw [e6]; show (i 0).val / 2000 * 2000 ≤ (i 0).val ∧ (i 0).val < (i 0).val / 2000 * 2000 + 2000; omega
  | ⟨1, _⟩ => show win2_3.index _ (1 : Fin 2) * 128 ≤ (i 1).val ∧ (i 1).val < win2_3.index _ (1 : Fin 2) * 128 + 128; rw [e7]; omega

/-- The region's result array after its 50 points: `rowScaleBias` of its operand arrays at entry. -/
theorem final (c : Dev nD) : (dat2 V c).arrAt 3 cfg2.N = rowScaleBias (V c main_v44) (V c main_v17) (V c main_v45) :=
  (dat2 V c).arrAt_eq_of_cover 3 (rowScaleBias (V c main_v44) (V c main_v17) (V c main_v45)) (fun t _ => flushed_eq V c t) cover

end Cert.KernelIdeal.RowScaleBias

end
-- ==== Proof.Bridge.lean ====
/-
  The three regions' whole-array functions against the reference's stages, index by index.
  * The rows-times-matrix function of the first region is the host's `dot_general` at the extended reals: both
    sum `X (r, k) · W (k, q)` over `k`.
  * The row scale of the middle region, its column operand the RESHAPE [100000] → [100000, 1] of a vector `d`, is
    the reference's multiply by `d` broadcast to a column and then along the lanes: both read `d` at the row.
  * The row scale plus bias of the last region, its column a reshape as before and its row the reshape
    [128] → [1, 128] of the bias, is the reference's multiply and add over the same broadcasts.
-/
import proofs.«179966_j39307540693803_1_alg».proof.Proof.MatmulRows
import proofs.«179966_j39307540693803_1_alg».proof.Proof.ScaleRows
import proofs.«179966_j39307540693803_1_alg».proof.Proof.ScaleBiasRows
import proofs.«179966_j39307540693803_1_alg».proof.Proof.RefRead

noncomputable section

namespace Cert.KernelIdeal.Bridge

open Cert.KernelIdeal Cert.KernelIdeal.Gen Idealize.ShloMosaic Idealize.ShloMosaic.TcCoe Idealize.SL.Sem
open Idealize.ShloMosaic.ValueIdx
open Cert.ReferenceIdeal.ReadP

/-- The first region's function is the reference's `dot_general` stage. -/
theorem rowsTimes_eq (X : FVec Ideal S100000x128 .f32) (W : FVec Ideal S128x128 .f32) :
    RowsTimes.rowsTimes X W = val_main_v4 (F := Ideal) X W := by
  funext i
  rw [val_main_v4_apply]
  unfold RowsTimes.rowsTimes
  refine Finset.sum_congr rfl fun k _ => ?_
  have el : (ix2 (i 0) k : S100000x128.Idx) = lidx_main_v4 i k := funext fun a => Fin.ext (by
    match a with
    | ⟨0, _⟩ => rfl
    | ⟨1, _⟩ => rfl)
  have er : (ix2 k (i 1) : S128x128.Idx) = ridx_main_v4 i k := funext fun a => Fin.ext (by
    match a with
    | ⟨0, _⟩ => rfl
    | ⟨1, _⟩ => rfl)
  rw [el, er]

variable {F : FTy → Type} [FloatOps F]

/-- A vector reshaped to one column, read at row `r`: the vector's entry `r`. -/
theorem column_apply (d : (⟨S100000, .f32⟩ : BufTy).Contents (Elt F)) (r : Fin 100000) (k : S100000.Idx) (hk : (k 0).val = r.val) :
    shapeCast S100000x1 d shapeCasts_S100000_S100000x1 (ix2 r (0 : Fin 1)) = d k :=
  shapeCast_apply d shapeCasts_S100000_S100000x1 (ix2 r (0 : Fin 1)) k (by
    rw [Shape.rowMajor_val_one, Shape.rowMajor_val_two]
    show (k 0).val = r.val * 1 + 0
    omega)

/-- A vector reshaped to one row, read at lane `q`: the vector's entry `q`. -/
theorem row_apply (b : (⟨S128, .f32⟩ : BufTy).Contents (Elt F)) (q : Fin 128) (k : S128.Idx) (hk : (k 0).val = q.val) :
    shapeCast S1x128 b shapeCasts_S128_S1x128 (ix2 (0 : Fin 1) q) = b k :=
  shapeCast_apply b shapeCasts_S128_S1x128 (ix2 (0 : Fin 1) q) k (by
    rw [Shape.rowMajor_val_one, Shape.rowMajor_val_two]
    show (k 0).val = 0 * 128 + q.val
    omega)

/-- The middle region's function of the reference's scatter stage and of the reshaped reciprocal degrees is the
    reference's product stage. -/
theorem rowScale_eq (x0 : (⟨S100000x128, .f32⟩ : BufTy).Contents (Elt F)) (x1 : (⟨S128x128, .f32⟩ : BufTy).Contents (Elt F))
    (x3 : (⟨S2x1600000, .i32⟩ : BufTy).Contents (Elt F)) :
    RowScale.rowScale (F := F) (val_main_v31 (F := F) x0 x1 x3) (shapeCast S100000x1 (val_main_v21 (F := F) x3) shapeCasts_S100000_S100000x1)
      = val_main_v34 (F := F) x0 x1 x3 := by
  funext i
  show FloatOps.mulf (val_main_v31 (F := F) x0 x1 x3 i) (shapeCast S100000x1 (val_main_v21 (F := F) x3) shapeCasts_S100000_S100000x1 (ix2 (i 0) (0 : Fin 1)))
    = FloatOps.mulf (val_main_v31 (F := F) x0 x1 x3 i) (val_main_v33 (F := F) x3 i)
  rw [val_main_v33_apply, val_main_v32_apply]
  exact congrArg _ (column_apply _ _ _ rfl)

/-- The last region's function of the reference's second scatter stage, of the reshaped reciprocal degrees and of the
    reshaped bias is the reference's result. -/
theorem rowScaleBias_eq (x0 : (⟨S100000x128, .f32⟩ : BufTy).Contents (Elt F)) (x1 : (⟨S128x128, .f32⟩ : BufTy).Contents (Elt F))
    (x2 : (⟨S128, .f32⟩ : BufTy).Contents (Elt F)) (x3 : (⟨S2x1600000, .i32⟩ : BufTy).Contents (Elt F)) :
    RowScaleBias.rowScaleBias (F := F) (val_main_v44 (F := F) x0 x1 x3)
        (shapeCast S100000x1 (val_main_v16 (F := F) x3) shapeCasts_S100000_S100000x1) (shapeCast S1x128 x2 shapeCasts_S128_S1x128)
      = val_main_v50 (F := F) x0 x1 x2 x3 := by
  funext i
  show FloatOps.addf (FloatOps.mulf (val_main_v44 (F := F) x0 x1 x3 i) (shapeCast S100000x1 (val_main_v16 (F := F) x3) shapeCasts_S100000_S100000x1 (ix2 (i 0) (0 : Fin 1))))
      (shapeCast S1x128 x2 shapeCasts_S128_S1x128 (ix2 (0 : Fin 1) (i 1)))
    = FloatOps.addf (FloatOps.mulf (val_main_v44 (F := F) x0 x1 x3 i) (val_main_v46 (F := F) x3 i)) (val_main_v49 (F := F) x2 i)
  rw [val_main_v46_apply, val_main_v45_apply, val_main_v49_apply, val_main_v48_apply]
  rw [column_apply (val_main_v16 (F := F) x3) (i 0) (idx_main_v45 (idx_main_v46 i)) rfl,
    row_apply x2 (i 1) (idx_main_v48 (idx_main_v49 i)) rfl]

end Cert.KernelIdeal.Bridge

end
-- ==== Proof.Chain.lean ====
/-
  The idealized kernel's buffers at each boundary of its @main, followed from the launch memory to the return, against
  the reference's stages of the four argument arrays as launched.
  * After the first host stretch the two index rows hold the reference's index rows.
  * The first region leaves the projected features `x · weight` (its row blocks of products tile the array; at the
    extended reals that is the host's `dot_general`), and nothing else moves.
  * The stretches before the middle region gather the projected rows at the node indices and scatter-add them at the
    hyperedge indices, and build the two columns of reciprocal degrees: the reference's stages of the same arguments.
  * The middle region scales each hyperedge's summed row by its reciprocal degree: the reference's product stage.
  * The stretch before the last region gathers those rows at the hyperedge indices and scatter-adds them at the node
    indices, and reshapes the bias to a row.
  * The last region scales each node's summed row by its reciprocal degree and adds the bias: the reference's result.
-/
import proofs.«179966_j39307540693803_1_alg».proof.Proof.Gen.KernelIdeal.Frame
import proofs.«179966_j39307540693803_1_alg».proof.Proof.HostStages
import proofs.«179966_j39307540693803_1_alg».proof.Proof.Bridge

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP (val_main_v1 val_main_v3 val_main_v4 val_main_v16 val_main_v21 val_main_v31 val_main_v34 val_main_v44 val_main_v50)

variable (m : (ℓ : Loc nD τ sig) → Buf (Elt Ideal) ℓ) (ρ : Dev nD → PrngReg)

/-- The four argument arrays as launched, at the reference's types. -/
abbrev feats (c : Dev nD) : (⟨Cert.ReferenceIdeal.S100000x128, .f32⟩ : BufTy).Contents (Elt Ideal) := m ((c : Thread nD τ).loc main_arg0)
abbrev weight (c : Dev nD) : (⟨Cert.ReferenceIdeal.S128x128, .f32⟩ : BufTy).Contents (Elt Ideal) := m ((c : Thread nD τ).loc main_arg1)
abbrev bias (c : Dev nD) : (⟨Cert.ReferenceIdeal.S128, .f32⟩ : BufTy).Contents (Elt Ideal) := m ((c : Thread nD τ).loc main_arg2)
abbrev incidence (c : Dev nD) : (⟨Cert.ReferenceIdeal.S2x1600000, .i32⟩ : BufTy).Contents (Elt Ideal) := m ((c : Thread nD τ).loc main_arg3)

/-! ## At the first region's entry -/

theorem at1_nodes (c : Dev nD) : W1 m ρ c (Proc.devRef .tc main_v1) = val_main_v1 (F := Ideal) (incidence m c) :=
  HostStages.first_nodes (W0 m ρ c)
theorem at1_edges (c : Dev nD) : W1 m ρ c (Proc.devRef .tc main_v3) = val_main_v3 (F := Ideal) (incidence m c) :=
  HostStages.first_edges (W0 m ρ c)
theorem at1_feats (c : Dev nD) : W1 m ρ c (Proc.devRef .tc main_arg0) = feats m c := HostStages.first_arg0 (W0 m ρ c)
theorem at1_weight (c : Dev nD) : W1 m ρ c (Proc.devRef .tc main_arg1) = weight m c := HostStages.first_arg1 (W0 m ρ c)
theorem at1_bias (c : Dev nD) : W1 m ρ c (Proc.devRef .tc main_arg2) = bias m c := HostStages.first_arg2 (W0 m ρ c)

/-! ## At the first region's exit -/

/-- The first region's result array: the projected features. -/
theorem at2_proj (c : Dev nD) : W2 m ρ c (Proc.devRef .tc main_v4) = val_main_v4 (F := Ideal) (feats m c) (weight m c) := by
  refine (W2_arr m ρ c 2).trans ((RowsTimes.final (V1 m ρ) c).trans ?_)
  rw [Bridge.rowsTimes_eq]
  show val_main_v4 (F := Ideal) (W1 m ρ c (Proc.devRef .tc main_arg0)) (W1 m ρ c (Proc.devRef .tc main_arg1)) = _
  rw [at1_feats, at1_weight]
theorem at2_nodes (c : Dev nD) : W2 m ρ c (Proc.devRef .tc main_v1) = val_main_v1 (F := Ideal) (incidence m c) :=
  (W2_of_ne m ρ c main_v1 (by decide)).trans (at1_nodes m ρ c)
theorem at2_edges (c : Dev nD) : W2 m ρ c (Proc.devRef .tc main_v3) = val_main_v3 (F := Ideal) (incidence m c) :=
  (W2_of_ne m ρ c main_v3 (by decide)).trans (at1_edges m ρ c)
theorem at2_bias (c : Dev nD) : W2 m ρ c (Proc.devRef .tc main_arg2) = bias m c :=
  (W2_of_ne m ρ c main_arg2 (by decide)).trans (at1_bias m ρ c)

/-! ## At the middle region's entry -/

theorem at7_edgeSums (c : Dev nD) :
    W7 m ρ c (Proc.devRef .tc main_v33) = val_main_v31 (F := Ideal) (feats m c) (weight m c) (incidence m c) :=
  HostStages.mid_edgeSums (W2 m ρ c) _ _ _ (at2_proj m ρ c) (at2_nodes m ρ c) (at2_edges m ρ c)
theorem at7_edgeInv (c : Dev nD) :
    W7 m ρ c (Proc.devRef .tc main_v23) = shapeCast S100000x1 (val_main_v21 (F := Ideal) (incidence m c)) shapeCasts_S100000_S100000x1 :=
  HostStages.mid_edgeInv (W2 m ρ c) _ (at2_edges m ρ c)
theorem at7_nodeInv (c : Dev nD) :
    W7 m ρ c (Proc.devRef .tc main_v17) = shapeCast S100000x1 (val_main_v16 (F := Ideal) (incidence m c)) shapeCasts_S100000_S100000x1 :=
  HostStages.mid_nodeInv (W2 m ρ c) _ (at2_nodes m ρ c)
theorem at7_nodes (c : Dev nD) : W7 m ρ c (Proc.devRef .tc main_v1) = val_main_v1 (F := Ideal) (incidence m c) :=
  (HostStages.mid_nodes (W2 m ρ c)).trans (at2_nodes m ρ c)
theorem at7_edges (c : Dev nD) : W7 m ρ c (Proc.devRef .tc main_v3) = val_main_v3 (F := Ideal) (incidence m c) :=
  (HostStages.mid_edges (W2 m ρ c)).trans (at2_edges m ρ c)
theorem at7_bias (c : Dev nD) : W7 m ρ c (Proc.devRef .tc main_arg2) = bias m c :=
  (HostStages.mid_arg2 (W2 m ρ c)).trans (at2_bias m ρ c)

/-! ## At the middle region's exit -/

/-- The middle region's result array: each hyperedge's summed row over its degree. -/
theorem at8_edgeFeat (c : Dev nD) :
    W8 m ρ c (Proc.devRef .tc main_v34) = val_main_v34 (F := Ideal) (feats m c) (weight m c) (incidence m c) := by
  refine (W8_arr m ρ c 2).trans ((RowScale.final (V7 m ρ) c).trans ?_)
  show RowScale.rowScale (F := Ideal) (W7 m ρ c (Proc.devRef .tc main_v33)) (W7 m ρ c (Proc.devRef .tc main_v23)) = _
  rw [at7_edgeSums, at7_edgeInv]
  exact Bridge.rowScale_eq _ _ _
theorem at8_nodeInv (c : Dev nD) :
    W8 m ρ c (Proc.devRef .tc main_v17) = shapeCast S100000x1 (val_main_v16 (F := Ideal) (incidence m c)) shapeCasts_S100000_S100000x1 :=
  (W8_of_ne m ρ c main_v17 (by decide)).trans (at7_nodeInv m ρ c)
theorem at8_nodes (c : Dev nD) : W8 m ρ c (Proc.devRef .tc main_v1) = val_main_v1 (F := Ideal) (incidence m c) :=
  (W8_of_ne m ρ c main_v1 (by decide)).trans (at7_nodes m ρ c)
theorem at8_edges (c : Dev nD) : W8 m ρ c (Proc.devRef .tc main_v3) = val_main_v3 (F := Ideal) (incidence m c) :=
  (W8_of_ne m ρ c main_v3 (by decide)).trans (at7_edges m ρ c)
theorem at8_bias (c : Dev nD) : W8 m ρ c (Proc.devRef .tc main_arg2) = bias m c :=
  (W8_of_ne m ρ c main_arg2 (by decide)).trans (at7_bias m ρ c)

/-! ## At the last region's entry -/

theorem at9_nodeSums (c : Dev nD) :
    W9 m ρ c (Proc.devRef .tc main_v44) = val_main_v44 (F := Ideal) (feats m c) (weight m c) (incidence m c) :=
  HostStages.last_nodeSums (W8 m ρ c) _ _ _ (at8_edgeFeat m ρ c) (at8_nodes m ρ c) (at8_edges m ρ c)
theorem at9_biasRow (c : Dev nD) : W9 m ρ c (Proc.devRef .tc main_v45) = shapeCast S1x128 (bias m c) shapeCasts_S128_S1x128 := by
  refine (HostStages.last_bias (W8 m ρ c)).trans ?_
  rw [at8_bias]
theorem at9_nodeInv (c : Dev nD) :
    W9 m ρ c (Proc.devRef .tc main_v17) = shapeCast S100000x1 (val_main_v16 (F := Ideal) (incidence m c)) shapeCasts_S100000_S100000x1 :=
  (HostStages.last_nodeInv (W8 m ρ c)).trans (at8_nodeInv m ρ c)

/-! ## At the return -/

/-- The last region's result array, which @main returns: the reference's result of the arguments as launched. -/
theorem result_eq (c : Dev nD) :
    W10 m ρ c (Proc.devRef .tc main_v46) = val_main_v50 (F := Ideal) (feats m c) (weight m c) (bias m c) (incidence m c) := by
  refine (W10_arr m ρ c 3).trans ((RowScaleBias.final (V9 m ρ) c).trans ?_)
  show RowScaleBias.rowScaleBias (F := Ideal) (W9 m ρ c (Proc.devRef .tc main_v44)) (W9 m ρ c (Proc.devRef .tc main_v17)) (W9 m ρ c (Proc.devRef .tc main_v45)) = _
  rw [at9_nodeSums, at9_nodeInv, at9_biasRow]
  exact Bridge.rowScaleBias_eq _ _ _ _

end Cert.KernelIdeal.Chain

end
-- ==== Proof.lean ====
/-
  The certificate of the hypergraph convolution `D⁻¹ · H · (B⁻¹ · (Hᵀ · (x · weight))) + bias`, the incidence matrix
  `H` given by two rows of node and hyperedge indices: the kernel's program against the reference, over the extended reals.

  Both programs apply the same host operations to the index rows — the degree counts by scatter-add of ones and their
  guarded reciprocals `D⁻¹`, `B⁻¹`; the gather of rows at the (wrapped) node indices with the scatter-add at the
  hyperedge indices, and back —, with the same literals. They differ in three places, each a Pallas region of the
  kernel where the reference has host arithmetic:
  * `x · weight`: row blocks of 2000 through the matrix unit after a narrowing to bf16, against one `dot_general`. At
    the extended reals the narrowing is the identity and the unit's product into a zero accumulator is the plain sum.
  * the scale by `B⁻¹`: the reciprocals RESHAPED to a column and broadcast inside each block, against the host's two
    broadcasts and multiply. Both read the reciprocal at the row.
  * the scale by `D⁻¹` plus bias: likewise, with the bias reshaped to a row.
  No algebraic law joins the two sides beyond the sums' spelling, so the precondition (finite inputs) is never opened.

  The frames of both printed kernels are the generated ones (three class-A regions among host stretches); the
  reference's frame is its run with the result dropped. `preserves` is trivial: the ideal pass rewrote nothing.
  The kernel's value is read off the same launch as its frame, the contents at each boundary of @main followed from
  the launch memory to the return (Proof/Chain.lean); the reference's is its run read one operation at a time.
-/
import proofs.«179966_j39307540693803_1_alg».proof.Defs
import proofs.«179966_j39307540693803_1_alg».proof.Proof.Gen.Kernel
import proofs.«179966_j39307540693803_1_alg».proof.Proof.Gen.Kernel.Frame
import proofs.«179966_j39307540693803_1_alg».proof.Proof.Gen.KernelIdeal
import proofs.«179966_j39307540693803_1_alg».proof.Proof.Gen.KernelIdeal.Frame
import proofs.«179966_j39307540693803_1_alg».proof.Proof.Gen.ReferenceIdeal
import proofs.«179966_j39307540693803_1_alg».proof.Proof.Gen.Pre_finite_inputs
import proofs.«179966_j39307540693803_1_alg».proof.Proof.KRun
import proofs.«179966_j39307540693803_1_alg».proof.Proof.RefRun
import proofs.«179966_j39307540693803_1_alg».proof.Proof.RefRead
import proofs.«179966_j39307540693803_1_alg».proof.Proof.Chain
import Idealize.ShloMosaic.Adequacy
import Idealize.ShloMosaic.Init

noncomputable section

open Idealize.ShloMosaic Idealize.ShloMosaic.TcCoe Idealize.SL.Sem

namespace Cert.KernelIdeal.Result

open Cert.KernelIdeal Cert.KernelIdeal.Gen

variable (m : (ℓ : Loc nD τ sig) → Buf (Elt Ideal) ℓ) (ρ : Dev nD → PrngReg)

/-- Every weakly fair execution of the idealized kernel's @main terminates, nothing faulting, with the returned array
    at the reference's result stage of the four arguments as launched, and the arguments unchanged. -/
theorem run : θ_run defs (onTc (τ := τ) (main (F := Ideal))) ⟨m, fun _ => 0, ρ⟩ fun r => ∀ c : Dev nD,
      r.2.mem ((c.tc : Thread nD τ).loc main_v46)
        = Cert.ReferenceIdeal.ReadP.val_main_v50 (F := Ideal) (Chain.feats m c) (Chain.weight m c) (Chain.bias m c) (Chain.incidence m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.KernelIdeal.GenP.run_named m ρ fun s h c =>
    ⟨(h c _ (mem_uc main_v46 (by decide))).trans (Chain.result_eq m ρ c),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c)⟩

end Cert.KernelIdeal.Result

namespace Cert.Proof

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel: nothing to preserve. -/
theorem preserves : Cert.preserves_Kernel_KernelIdeal := trivial

/-- From memories agreeing on the four arguments both programs end at the reference's result stage of them. -/
theorem algebraic : Cert.algebraic_KernelIdeal_ReferenceIdeal := by
  intro m ρ m' ρ' _ hagree
  refine ⟨fun c => Cert.ReferenceIdeal.ReadP.val_main_v50 (F := Ideal) (Cert.KernelIdeal.Chain.feats m c) (Cert.KernelIdeal.Chain.weight m c)
    (Cert.KernelIdeal.Chain.bias m c) (Cert.KernelIdeal.Chain.incidence m c), Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v50_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
